-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S100000x128 : Shape := ⟨2, ![100000, 128]⟩
abbrev S400000 : Shape := ⟨1, ![400000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S256x128 .f32) (main_arg7 : FVec F S128 .f32) (main_arg8 : FVec F S128 .f32) (main_arg9 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_v33

def fn {F : FTy → Type} [FloatOps F] (main_arg0 : FVec F S400000x128 .f32) (main_arg1 : FVec F S100000x128 .f32) (main_arg2 : IVec S400000 32) (main_arg3 : IVec S400000 32) (main_arg4 : FVec F S384x256 .f32) (main_arg5 : FVec F S256 .f32) (main_arg6 : FVec F S256x128 .f32) (main_arg7 : FVec F S128 .f32) (main_arg8 : FVec F S128 .f32) (main_arg9 : FVec F S128 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S384x256 .f32 := Host.absf main_arg4
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_v13 main_v16
-- ==== Kernel.lean ====
abbrev S400000x128 : Shape := ⟨2, ![400000, 128]⟩
abbrev S100000x128 : Shape := ⟨2, ![100000, 128]⟩
abbrev S400000 : Shape := ⟨1, ![400000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩
abbrev S400000x1 : Shape := ⟨2, ![400000, 1]⟩
abbrev S1x256 : Shape := ⟨2, ![1, 256]⟩
abbrev S1x128 : Shape := ⟨2, ![1, 128]⟩
abbrev S1600x128 : Shape := ⟨2, ![1600, 128]⟩
abbrev S1600x384 : Shape := ⟨2, ![1600, 384]⟩
abbrev S1600x256 : Shape := ⟨2, ![1600, 256]⟩
abbrev S1600 : Shape := ⟨1, ![1600]⟩
abbrev S1600x1 : Shape := ⟨2, ![1600, 1]⟩

abbrev nBuf : Space → Nat
  | .hbm => 33
  | .vmem => 14
  | .smem => 0
  | _ => 0

abbrev bufTy : (tb : Table) → Fin (tcTables nBuf tb) → BufTy
  | .hbm, ⟨0, _⟩ => ⟨S400000x128, .f32⟩
  | .hbm, ⟨1, _⟩ => ⟨S100000x128, .f32⟩
  | .hbm, ⟨2, _⟩ => ⟨S400000, .i32⟩
  | .hbm, ⟨3, _⟩ => ⟨S400000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000x1, .i32⟩
  | .hbm, ⟨18, _⟩ => ⟨S400000x128, .f32⟩
  | .hbm, ⟨19, _⟩ => ⟨S_, .i32⟩
  | .hbm, ⟨20, _⟩ => ⟨S400000, .i32⟩
  | .hbm, ⟨21, _⟩ => ⟨S400000, .i1⟩
  | .hbm, ⟨22, _⟩ => ⟨S_, .i32⟩
  | .hbm, ⟨23, _⟩ => ⟨S400000, .i32⟩
  | .hbm, ⟨24, _⟩ => ⟨S400000, .i32⟩
  | .hbm, ⟨25, _⟩ => ⟨S400000, .i32⟩
  | .hbm, ⟨26, _⟩ => ⟨S400000x1, .i32⟩
  | .hbm, ⟨27, _⟩ => ⟨S400000x128, .f32⟩
  | .hbm, ⟨28, _⟩ => ⟨S1x256, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S400000x128, .f32⟩
  | .local _ .vmem, ⟨0, _⟩ => ⟨S1600x128, .f32⟩
  | .local _ .vmem, ⟨1, _⟩ => ⟨S1600x128, .f32⟩
  | .local _ .vmem, ⟨2, _⟩ => ⟨S1600x128, .f32⟩
  | .local _ .vmem, ⟨3, _⟩ => ⟨S1600x128, .f32⟩
  | .local _ .vmem, ⟨4, _⟩ => ⟨S1600x128, .f32⟩
  | .local _ .vmem, ⟨5, _⟩ => ⟨S1600x128, .f32⟩
  | .local _ .vmem, ⟨6, _⟩ => ⟨S384x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1600x128, .f32⟩
  | .local _ .vmem, ⟨13, _⟩ => ⟨S1600x128, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1600x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1600x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  shapeCasts_S256_S1x256 : S256.ShapeCasts S1x256
  shapeCasts_S128_S1x128 : S128.ShapeCasts S1x128
  inb_S1600x128_S1600x128_0_0 : ∀ a, (![0, 0] : Fin 2 → Nat) a + S1600x128.size a ≤ S1600x128.size a
  h_S1600x128 : 0 < S1600x128.numel
  shapeCasts_S1600x128_S1600x128 : S1600x128.ShapeCasts S1600x128
  concatenates_S1600x128_S1600x128_S1600x128_S1600x384_d1 : Shape.Concatenates [S1600x128, S1600x128, S1600x128] S1600x384 1
  bitsLt_bf16_f32 : FTy.bits .bf16 < FTy.bits .f32
  inb_S384x256_S384x256_0_0 : ∀ a, (![0, 0] : Fin 2 → Nat) a + S384x256.size a ≤ S384x256.size a
  h_S384x256 : 0 < S384x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1600x256 : S1x256.Broadcasts S1600x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1600x128 : S1x128.Broadcasts S1600x128
  reduces_S1600x128_S1600 : S1600x128.Reduces [1] S1600
  shapeCasts_S1600_S1600x1 : S1600.ShapeCasts S1600x1
  broadcasts_S1600x1_S1600x128 : S1600x1.Broadcasts S1600x128
  gather_S100000x128_S400000x1_S400000x128_1_0_n_n_0_1_1128_wf : GatherDims.WF S100000x128 S400000x1 S400000x128 [1] [0] [] [0] [] 1 ![1, 128]
  dot_S1600x384_S384x256_S1600x256_1_0_0_1_n_n_wf : DotDims.WF S1600x384 S384x256 S1600x256 [1] [0] [0] [1] [] []
  dot_S1600x256_S256x128_S1600x128_1_0_0_1_n_n_wf : DotDims.WF S1600x256 S256x128 S1600x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x128.size a ≤ S400000x128.size a
  hwx0_0 : ∀ i : grid0.Coords, EltTy.bits .f32 = 32 ∨ (Rect.block (s := S400000x128) S1600x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x128.size a ≤ S400000x128.size a
  hwx0_1 : ∀ i : grid0.Coords, EltTy.bits .f32 = 32 ∨ (Rect.block (s := S400000x128) S1600x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1600x128.size a ≤ S400000x128.size a
  hwx0_2 : ∀ i : grid0.Coords, EltTy.bits .f32 = 32 ∨ (Rect.block (s := S400000x128) S1600x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x256.size a ≤ S384x256.size a
  hwx0_3 : ∀ i : grid0.Coords, EltTy.bits .f32 = 32 ∨ (Rect.block (s := S384x256) S384x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1600x128.size a ≤ S400000x128.size a
  hwx0_9 : ∀ i : grid0.Coords, EltTy.bits .f32 = 32 ∨ (Rect.block (s := S400000x128) S1600x128.size (cc0_transform_9 i) (hinb0_9 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S1600x384_S384x256_S1600x256_1_0_0_1_n_n : DotDims S1600x384 S384x256 S1600x256 where
  lhsContracting := [1]
  rhsContracting := [0]
  lhsNonContracting := [0]
  rhsNonContracting := [1]
  lhsBatch := []
  rhsBatch := []
  wf := dot_S1600x384_S384x256_S1600x256_1_0_0_1_n_n_wf
def dot_S1600x256_S256x128_S1600x128_1_0_0_1_n_n : DotDims S1600x256 S256x128 S1600x128 where
  lhsContracting := [1]
  rhsContracting := [0]
  lhsNonContracting := [0]
  rhsNonContracting := [1]
  lhsBatch := []
  rhsBatch := []
  wf := dot_S1600x256_S256x128_S1600x128_1_0_0_1_n_n_wf

abbrev win0_0 : Pipeline.Window sig grid0 :=
  Pipeline.Window.ofSpec (Memref.whole main_arg0) S1600x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1600x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1600x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1600x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S400000x128 : Shape := ⟨2, ![400000, 128]⟩
abbrev S100000x128 : Shape := ⟨2, ![100000, 128]⟩
abbrev S400000 : Shape := ⟨1, ![400000]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩
abbrev S400000x1 : Shape := ⟨2, ![400000, 1]⟩
abbrev S400000x384 : Shape := ⟨2, ![400000, 384]⟩
abbrev S400000x256 : Shape := ⟨2, ![400000, 256]⟩
abbrev S1x256 : Shape := ⟨2, ![1, 256]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S400000x128, .f32⟩
  | .hbm, ⟨1, _⟩ => ⟨S100000x128, .f32⟩
  | .hbm, ⟨2, _⟩ => ⟨S400000, .i32⟩
  | .hbm, ⟨3, _⟩ => ⟨S400000, .i32⟩
  | .hbm, ⟨4, _⟩ => ⟨S384x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000x1, .i32⟩
  | .hbm, ⟨18, _⟩ => ⟨S400000x128, .f32⟩
  | .hbm, ⟨19, _⟩ => ⟨S_, .i32⟩
  | .hbm, ⟨20, _⟩ => ⟨S400000, .i32⟩
  | .hbm, ⟨21, _⟩ => ⟨S400000, .i1⟩
  | .hbm, ⟨22, _⟩ => ⟨S_, .i32⟩
  | .hbm, ⟨23, _⟩ => ⟨S400000, .i32⟩
  | .hbm, ⟨24, _⟩ => ⟨S400000, .i32⟩
  | .hbm, ⟨25, _⟩ => ⟨S400000, .i32⟩
  | .hbm, ⟨26, _⟩ => ⟨S400000x1, .i32⟩
  | .hbm, ⟨27, _⟩ => ⟨S400000x128, .f32⟩
  | .hbm, ⟨28, _⟩ => ⟨S400000x384, .f32⟩
  | .hbm, ⟨29, _⟩ => ⟨S400000x256, .f32⟩
  | .hbm, ⟨30, _⟩ => ⟨S1x256, .f32⟩
  | .hbm, ⟨31, _⟩ => ⟨S400000x256, .f32⟩
  | .hbm, ⟨32, _⟩ => ⟨S400000x256, .f32⟩
  | .hbm, ⟨33, _⟩ => ⟨S400000x256, .f32⟩
  | .hbm, ⟨34, _⟩ => ⟨S400000x256, .f32⟩
  | .hbm, ⟨35, _⟩ => ⟨S_, .f32⟩
  | .hbm, ⟨36, _⟩ => ⟨S400000x256, .f32⟩
  | .hbm, ⟨37, _⟩ => ⟨S400000x256, .f32⟩
  | .hbm, ⟨38, _⟩ => ⟨S_, .f32⟩
  | .hbm, ⟨39, _⟩ => ⟨S400000x256, .f32⟩
  | .hbm, ⟨40, _⟩ => ⟨S400000x256, .f32⟩
  | .hbm, ⟨41, _⟩ => ⟨S400000x256, .f32⟩
  | .hbm, ⟨42, _⟩ => ⟨S400000x128, .f32⟩
  | .hbm, ⟨43, _⟩ => ⟨S1x128, .f32⟩
  | .hbm, ⟨44, _⟩ => ⟨S400000x128, .f32⟩
  | .hbm, ⟨45, _⟩ => ⟨S400000x128, .f32⟩
  | .hbm, ⟨46, _⟩ => ⟨S_, .f32⟩
  | .hbm, ⟨47, _⟩ => ⟨S400000, .f32⟩
  | .hbm, ⟨48, _⟩ => ⟨S400000x1, .f32⟩
  | .hbm, ⟨49, _⟩ => ⟨S_, .f32⟩
  | .hbm, ⟨50, _⟩ => ⟨S400000x1, .f32⟩
  | .hbm, ⟨51, _⟩ => ⟨S400000x1, .f32⟩
  | .hbm, ⟨52, _⟩ => ⟨S400000x128, .f32⟩
  | .hbm, ⟨53, _⟩ => ⟨S400000x128, .f32⟩
  | .hbm, ⟨54, _⟩ => ⟨S400000x128, .f32⟩
  | .hbm, ⟨55, _⟩ => ⟨S_, .f32⟩
  | .hbm, ⟨56, _⟩ => ⟨S400000, .f32⟩
  | .hbm, ⟨57, _⟩ => ⟨S400000x1, .f32⟩
  | .hbm, ⟨58, _⟩ => ⟨S_, .f32⟩
  | .hbm, ⟨59, _⟩ => ⟨S400000x1, .f32⟩
  | .hbm, ⟨60, _⟩ => ⟨S400000x1, .f32⟩
  | .hbm, ⟨61, _⟩ => ⟨S400000x128, .f32⟩
  | .hbm, ⟨62, _⟩ => ⟨S400000x128, .f32⟩
  | .hbm, ⟨63, _⟩ => ⟨S_, .f32⟩
  | .hbm, ⟨64, _⟩ => ⟨S400000x1, .f32⟩
  | .hbm, ⟨65, _⟩ => ⟨S400000x1, .f32⟩
  | .hbm, ⟨66, _⟩ => ⟨S400000x1, .f32⟩
  | .hbm, ⟨67, _⟩ => ⟨S400000x128, .f32⟩
  | .hbm, ⟨68, _⟩ => ⟨S400000x128, .f32⟩
  | .hbm, ⟨69, _⟩ => ⟨S1x128, .f32⟩
  | .hbm, ⟨70, _⟩ => ⟨S400000x128, .f32⟩
  | .hbm, ⟨71, _⟩ => ⟨S400000x128, .f32⟩
  | .hbm, ⟨72, _⟩ => ⟨S1x128, .f32⟩
  | .hbm, ⟨73, _⟩ => ⟨S400000x128, .f32⟩
  | .hbm, ⟨74, _⟩ => ⟨S400000x128, .f32⟩
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  bcast_S256_S1x256_1 : S256.BroadcastsInDim S1x256 (![1] : Fin 1 → Fin S1x256.rank)
  bcast_S1x256_S400000x256_0_1 : S1x256.BroadcastsInDim S400000x256 (![0, 1] : Fin 2 → Fin S400000x256.rank)
  bcast_S_S400000x256 : S_.BroadcastsInDim S400000x256 (![] : Fin 0 → Fin S400000x256.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  reducesTo_S400000x128_S400000_d1 : S400000x128.ReducesTo [1] S400000
  h_S_ : 0 < S_.numel
  bcast_S_S400000x1 : S_.BroadcastsInDim S400000x1 (![] : Fin 0 → Fin S400000x1.rank)
  bcast_S400000x1_S400000x128_0_1 : S400000x1.BroadcastsInDim S400000x128 (![0, 1] : Fin 2 → Fin S400000x128.rank)
  gather_S100000x128_S400000x1_S400000x128_1_0_n_n_0_1_1128_wf : GatherDims.WF S100000x128 S400000x1 S400000x128 [1] [0] [] [0] [] 1 ![1, 128]
  dot_S400000x384_S384x256_S400000x256_1_0_0_1_n_n_wf : DotDims.WF S400000x384 S384x256 S400000x256 [1] [0] [0] [1] [] []
  dot_S400000x256_S256x128_S400000x128_1_0_0_1_n_n_wf : DotDims.WF S400000x256 S256x128 S400000x128 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S400000x384_S384x256_S400000x256_1_0_0_1_n_n : DotDims S400000x384 S384x256 S400000x256 where
  lhsContracting := [1]
  rhsContracting := [0]
  lhsNonContracting := [0]
  rhsNonContracting := [1]
  lhsBatch := []
  rhsBatch := []
  wf := dot_S400000x384_S384x256_S400000x256_1_0_0_1_n_n_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf

class Facts : Prop extends Facts₀ where

variable [Facts]
-- ==== Proof.EdgeMlpSpec.lean ====
/-
  The edge network as mathematics, one edge row at a time, over the extended reals.

  An edge row is the concatenation `[e | gs | gd]` (384 entries) of the edge's own 128 features with the 128 features
  of its source node and of its destination node. The network maps it to

      h   = x · W1 + b1                      (256 entries)
      s   = h · logistic h                   (SiLU)
      y   = s · W2 + b2                      (128 entries)
      out = (y − mean y) · rsqrt (mean ((y − mean y)²) + ε) · γ + β        (LayerNorm over the 128 entries)

  with `mean z = (Σ z) / 128`. Both programs of the certificate compute exactly this, row by row, with the same
  association of every product and sum, so nothing here needs a law of the extended reals beyond `0 + x = x`;
  the two float constants (128 and ε) stay as their words.
-/
import Idealize.ShloMosaic.PureOps.Ideal
import Idealize.ShloMosaic.PureOps.Ideal.Laws
import Idealize.ShloMosaic.Lib.ValueIdx

noncomputable section

open scoped BigOperators

namespace Cert.EdgeMlp

open Idealize.ShloMosaic Idealize.ShloMosaic.ValueIdx

/-- The divisor of the two means: the f32 word of 128. -/
abbrev c128 : EReal := Ideal.ofBits .f32 0x43000000#32
/-- LayerNorm's ε: the f32 word nearest 1e-5. -/
abbrev cEps : EReal := Ideal.ofBits .f32 0x3727C5AC#32

/-- The concatenated row `[e | gs | gd]`: column `l` comes from `e` below 128, from `gs` below 256, else from `gd`. -/
def catRow (e gs gd : Fin 128 → EReal) (l : Fin 384) : EReal :=
  if h : l.val < 128 then e ⟨l.val, h⟩
  else if h' : l.val < 256 then gs ⟨l.val - 128, by omega⟩
  else gd ⟨l.val - 256, by have := l.isLt; omega⟩

/-- The first layer before its activation: `x · W1 + b1` at hidden unit `k`. -/
def hidden (x : Fin 384 → EReal) (W1 : Fin 384 → Fin 256 → EReal) (b1 : Fin 256 → EReal) (k : Fin 256) : EReal :=
  (∑ l : Fin 384, x l * W1 l k) + b1 k

/-- SiLU: `h · logistic h`. -/
def silu (h : EReal) : EReal := h * Ideal.logistic h

/-- The second layer: `s · W2 + b2` at output feature `j`. -/
def proj (s : Fin 256 → EReal) (W2 : Fin 256 → Fin 128 → EReal) (b2 : Fin 128 → EReal) (j : Fin 128) : EReal :=
  (∑ k : Fin 256, s k * W2 k j) + b2 j

/-- The mean of a row of 128 entries: their sum over the word of 128. -/
def mean (z : Fin 128 → EReal) : EReal := Ideal.div (∑ j : Fin 128, z j) c128

/-- A row minus its mean. -/
def centred (y : Fin 128 → EReal) (j : Fin 128) : EReal := y j - mean y

/-- The reciprocal standard deviation of a row: `rsqrt (mean of the squared centred entries + ε)`. -/
def rstd (y : Fin 128 → EReal) : EReal := Ideal.rsqrt (mean (fun q => centred y q * centred y q) + cEps)

/-- LayerNorm of a row with scale `γ` and shift `β`, associated as both programs associate it. -/
def layerNorm (y γ β : Fin 128 → EReal) (j : Fin 128) : EReal := centred y j * rstd y * γ j + β j

/-- The second layer's row from the three feature rows. -/
def preNorm (e gs gd : Fin 128 → EReal) (W1 : Fin 384 → Fin 256 → EReal) (b1 : Fin 256 → EReal)
    (W2 : Fin 256 → Fin 128 → EReal) (b2 : Fin 128 → EReal) : Fin 128 → EReal :=
  proj (fun k => silu (hidden (catRow e gs gd) W1 b1 k)) W2 b2

/-- The network on one edge row. -/
def edgeRow (e gs gd : Fin 128 → EReal) (W1 : Fin 384 → Fin 256 → EReal) (b1 : Fin 256 → EReal)
    (W2 : Fin 256 → Fin 128 → EReal) (b2 γ β : Fin 128 → EReal) : Fin 128 → EReal :=
  layerNorm (preNorm e gs gd W1 b1 W2 b2) γ β

/-- The whole result: entry `(r, j)` is the network on row `r` of the edge features `E` and of the two gathered node
    feature arrays `GS`, `GD`, at feature `j`. The weights are matrices, the biases and the LayerNorm parameters vectors. -/
def G (E GS GD : (⟨2, ![400000, 128]⟩ : Shape).Idx → EReal) (W1 : (⟨2, ![384, 256]⟩ : Shape).Idx → EReal)
    (b1 : (⟨1, ![256]⟩ : Shape).Idx → EReal) (W2 : (⟨2, ![256, 128]⟩ : Shape).Idx → EReal)
    (b2 γ β : (⟨1, ![128]⟩ : Shape).Idx → EReal) : (⟨2, ![400000, 128]⟩ : Shape).Idx → EReal := fun i =>
  edgeRow (fun q => E (ix2 (i 0) q)) (fun q => GS (ix2 (i 0) q)) (fun q => GD (ix2 (i 0) q))
    (fun l k => W1 (ix2 l k)) (fun k => b1 (ix1 k)) (fun k j => W2 (ix2 k j))
    (fun j => b2 (ix1 j)) (fun j => γ (ix1 j)) (fun j => β (ix1 j)) (i 1)

/-- The f32 word of 1.0 is the real 1. -/
theorem ofBits_one_f32 : Ideal.ofBits .f32 0x3F800000#32 = 1 := by
  have h : (8388608 : ℝ) * ((2 : ℝ) ^ 23)⁻¹ = 1 := by norm_num
  simp only [Ideal.ofBits, Ideal.ieee]
  simp
  rw [← EReal.coe_mul, h]
  exact EReal.coe_one

/-- jax's expansion of the logistic function, `1 / (1 + exp (−h))` with both ones the word of 1.0, is the logistic
    function; so `h · (1 / (1 + exp (−h)))` is SiLU. -/
theorem silu_expanded (h : EReal) :
    h * Ideal.div (Ideal.ofBits .f32 0x3F800000#32) (Ideal.ofBits .f32 0x3F800000#32 + Ideal.exp (-h)) = silu h := by
  rw [ofBits_one_f32]; rfl

end Cert.EdgeMlp

end
-- ==== Proof.KernelRow.lean ====
/-
  One block of the kernel, read a row at a time.

  At a grid point the body holds nine loaded blocks: 1600 rows of the edge features and of the two gathered node feature
  arrays, the two weight matrices, and the four parameter rows (as 1 × n blocks). What it stores at block index `(p, j)`
  is the edge network of `EdgeMlpSpec` on row `p` of the three feature blocks, at feature `j`.

  The body's value is named layer by layer (`joined`, `layer1`, `act`, `layer2`: the same operations, in the same
  order), and each layer is read at an index: the concatenation picks its piece by the column, a matrix product into
  the zero accumulator is the sum over the contracted axis, a row reduction is the sum over the row, and the
  broadcasts and unit-axis casts only move coordinates. The changes of float format are the identity here.
-/
import proofs.«108960_j76390288327364_1_alg».proof.Proof.Gen.KernelIdeal.Value
import proofs.«108960_j76390288327364_1_alg».proof.Proof.EdgeMlpSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.EdgeMlp.KernelSide

open Cert.KernelIdeal Cert.KernelIdeal.Gen Idealize.ShloMosaic Idealize.ShloMosaic.ValueIdx Cert.EdgeMlp

/-! ## Layout operations at the coordinates met here -/

/-- A `[a]` vector cast to the column `[a, 1]` reads, at `(p, u)`, the vector at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products: where an output index and a contraction index read the operands -/

theorem lhs1_0 (i : S1600x256.Idx) (q : dot_S1600x384_S384x256_S1600x256_1_0_0_1_n_n.contr.Idx) :
    (dot_S1600x384_S384x256_S1600x256_1_0_0_1_n_n.lhsIdx i q 0).val = (i 0).val := by
  unfold DotDims.lhsIdx
  rw [dif_neg (show ¬(0 : Fin S1600x384.rank) ∈ dot_S1600x384_S384x256_S1600x256_1_0_0_1_n_n.lhsBatch by decide), dif_pos (show (0 : Fin S1600x384.rank) ∈ dot_S1600x384_S384x256_S1600x256_1_0_0_1_n_n.lhsNonContracting by decide)]
  rfl
theorem lhs1_1 (i : S1600x256.Idx) (q : dot_S1600x384_S384x256_S1600x256_1_0_0_1_n_n.contr.Idx) :
    (dot_S1600x384_S384x256_S1600x256_1_0_0_1_n_n.lhsIdx i q 1).val = (q ⟨0, by decide⟩).val :=
  dot_S1600x384_S384x256_S1600x256_1_0_0_1_n_n.lhsIdx_val_of_single rfl i q
theorem rhs1_0 (i : S1600x256.Idx) (q : dot_S1600x384_S384x256_S1600x256_1_0_0_1_n_n.contr.Idx) :
    (dot_S1600x384_S384x256_S1600x256_1_0_0_1_n_n.rhsIdx i q 0).val = (q ⟨0, by decide⟩).val :=
  dot_S1600x384_S384x256_S1600x256_1_0_0_1_n_n.rhsIdx_val_of_single rfl i q
theorem rhs1_1 (i : S1600x256.Idx) (q : dot_S1600x384_S384x256_S1600x256_1_0_0_1_n_n.contr.Idx) :
    (dot_S1600x384_S384x256_S1600x256_1_0_0_1_n_n.rhsIdx i q 1).val = (i 1).val := by
  unfold DotDims.rhsIdx
  rw [dif_neg (show ¬(1 : Fin S384x256.rank) ∈ dot_S1600x384_S384x256_S1600x256_1_0_0_1_n_n.rhsBatch by decide), dif_pos (show (1 : Fin S384x256.rank) ∈ dot_S1600x384_S384x256_S1600x256_1_0_0_1_n_n.rhsNonContracting by decide)]
  rfl

/-- The first product, into the zero accumulator, at `(p, k)`: the sum over the 384 joined columns. -/
theorem product1_apply (A : FVec Ideal S1600x384 .bf16) (B : FVec Ideal S384x256 .bf16) (p : Fin 1600) (k : Fin 256) :
    matmul dot_S1600x384_S384x256_S1600x256_1_0_0_1_n_n none A B (constant S1600x256 .f32 0x00000000#32) (ix2 p k)
      = ∑ l : Fin 384, A (ix2 p l) * B (ix2 l k) := by
  simp only [matmul]
  rw [Ideal.matmul_constant_zero_apply, ← Equiv.sum_comp (ValueIdx.contrEquiv1 dot_S1600x384_S384x256_S1600x256_1_0_0_1_n_n 384 rfl rfl).symm]
  refine Finset.sum_congr rfl fun l _ => ?_
  have hk := ValueIdx.contrEquiv1_symm_val dot_S1600x384_S384x256_S1600x256_1_0_0_1_n_n 384 rfl rfl l
  have el : dot_S1600x384_S384x256_S1600x256_1_0_0_1_n_n.lhsIdx (ix2 p k) ((ValueIdx.contrEquiv1 dot_S1600x384_S384x256_S1600x256_1_0_0_1_n_n 384 rfl rfl).symm l) = ix2 p l := funext fun a => Fin.ext (by
    match a with
    | ⟨0, _⟩ => exact lhs1_0 _ _
    | ⟨1, _⟩ => exact (lhs1_1 _ _).trans hk)
  have er : dot_S1600x384_S384x256_S1600x256_1_0_0_1_n_n.rhsIdx (ix2 p k) ((ValueIdx.contrEquiv1 dot_S1600x384_S384x256_S1600x256_1_0_0_1_n_n 384 rfl rfl).symm l) = ix2 l k := funext fun a => Fin.ext (by
    match a with
    | ⟨0, _⟩ => exact (rhs1_0 _ _).trans hk
    | ⟨1, _⟩ => exact rhs1_1 _ _)
  rw [el, er]

theorem lhs2_0 (i : S1600x128.Idx) (q : dot_S1600x256_S256x128_S1600x128_1_0_0_1_n_n.contr.Idx) :
    (dot_S1600x256_S256x128_S1600x128_1_0_0_1_n_n.lhsIdx i q 0).val = (i 0).val := by
  unfold DotDims.lhsIdx
  rw [dif_neg (show ¬(0 : Fin S1600x256.rank) ∈ dot_S1600x256_S256x128_S1600x128_1_0_0_1_n_n.lhsBatch by decide), dif_pos (show (0 : Fin S1600x256.rank) ∈ dot_S1600x256_S256x128_S1600x128_1_0_0_1_n_n.lhsNonContracting by decide)]
  rfl
theorem lhs2_1 (i : S1600x128.Idx) (q : dot_S1600x256_S256x128_S1600x128_1_0_0_1_n_n.contr.Idx) :
    (dot_S1600x256_S256x128_S1600x128_1_0_0_1_n_n.lhsIdx i q 1).val = (q ⟨0, by decide⟩).val :=
  dot_S1600x256_S256x128_S1600x128_1_0_0_1_n_n.lhsIdx_val_of_single rfl i q
theorem rhs2_0 (i : S1600x128.Idx) (q : dot_S1600x256_S256x128_S1600x128_1_0_0_1_n_n.contr.Idx) :
    (dot_S1600x256_S256x128_S1600x128_1_0_0_1_n_n.rhsIdx i q 0).val = (q ⟨0, by decide⟩).val :=
  dot_S1600x256_S256x128_S1600x128_1_0_0_1_n_n.rhsIdx_val_of_single rfl i q
theorem rhs2_1 (i : S1600x128.Idx) (q : dot_S1600x256_S256x128_S1600x128_1_0_0_1_n_n.contr.Idx) :
    (dot_S1600x256_S256x128_S1600x128_1_0_0_1_n_n.rhsIdx i q 1).val = (i 1).val := by
  unfold DotDims.rhsIdx
  rw [dif_neg (show ¬(1 : Fin S256x128.rank) ∈ dot_S1600x256_S256x128_S1600x128_1_0_0_1_n_n.rhsBatch by decide), dif_pos (show (1 : Fin S256x128.rank) ∈ dot_S1600x256_S256x128_S1600x128_1_0_0_1_n_n.rhsNonContracting by decide)]
  rfl

/-- The second product, into the zero accumulator, at `(p, j)`: the sum over the 256 hidden units. -/
theorem product2_apply (A : FVec Ideal S1600x256 .bf16) (B : FVec Ideal S256x128 .bf16) (p : Fin 1600) (j : Fin 128) :
    matmul dot_S1600x256_S256x128_S1600x128_1_0_0_1_n_n none A B (constant S1600x128 .f32 0x00000000#32) (ix2 p j)
      = ∑ k : Fin 256, A (ix2 p k) * B (ix2 k j) := by
  simp only [matmul]
  rw [Ideal.matmul_constant_zero_apply, ← Equiv.sum_comp (ValueIdx.contrEquiv1 dot_S1600x256_S256x128_S1600x128_1_0_0_1_n_n 256 rfl rfl).symm]
  refine Finset.sum_congr rfl fun k _ => ?_
  have hk := ValueIdx.contrEquiv1_symm_val dot_S1600x256_S256x128_S1600x128_1_0_0_1_n_n 256 rfl rfl k
  have el : dot_S1600x256_S256x128_S1600x128_1_0_0_1_n_n.lhsIdx (ix2 p j) ((ValueIdx.contrEquiv1 dot_S1600x256_S256x128_S1600x128_1_0_0_1_n_n 256 rfl rfl).symm k) = ix2 p k := funext fun a => Fin.ext (by
    match a with
    | ⟨0, _⟩ => exact lhs2_0 _ _
    | ⟨1, _⟩ => exact (lhs2_1 _ _).trans hk)
  have er : dot_S1600x256_S256x128_S1600x128_1_0_0_1_n_n.rhsIdx (ix2 p j) ((ValueIdx.contrEquiv1 dot_S1600x256_S256x128_S1600x128_1_0_0_1_n_n 256 rfl rfl).symm k) = ix2 k j := funext fun a => Fin.ext (by
    match a with
    | ⟨0, _⟩ => exact (rhs2_0 _ _).trans hk
    | ⟨1, _⟩ => exact rhs2_1 _ _)
  rw [el, er]

/-- A row sum of a `[1600, 128]` value, from the zero word, at row `p`: the sum over the row's 128 entries. -/
theorem rowSum_apply (X : FVec Ideal S1600x128 .f32) (p : Fin 1600) :
    multiReduction .add [1] S1600 X 0x00000000#32 reduces_S1600x128_S1600 (.inl rfl) rfl (ix1 p)
      = ∑ q : Fin 128, X (ix2 p q) := by
  refine (Ideal.multiReduction_add_single X 0x00000000#32 reduces_S1600x128_S1600 (.inl rfl) rfl (ix1 p)).trans ?_
  refine Finset.sum_congr rfl fun q _ => ?_
  exact congrArg X (funext fun a => Fin.ext (by match a with | ⟨0, _⟩ => rfl | ⟨1, _⟩ => rfl))

/-! ## The joined row -/

/-- The body's concatenation at `(p, l)`: column `l` of the row `[P0 row p | P1 row p | P2 row p]`. (The two casts of a
    block to its own shape are the identity.) -/
theorem joined_apply (P0 P1 P2 : Vec Ideal S1600x128 .f32) (p : Fin 1600) (l : Fin 384) :
    concatenate S1600x384 1 [⟨S1600x128, P0⟩, ⟨S1600x128, shapeCast S1600x128 P1 shapeCasts_S1600x128_S1600x128⟩,
        ⟨S1600x128, shapeCast S1600x128 P2 shapeCasts_S1600x128_S1600x128⟩]
        concatenates_S1600x128_S1600x128_S1600x128_S1600x384_d1 (ix2 p l)
      = catRow (fun q => P0 (ix2 p q)) (fun q => P1 (ix2 p q)) (fun q => P2 (ix2 p q)) l := by
  unfold catRow
  split
  · next h =>
    exact concatenate_apply_piece (1 : Fin S1600x384.rank) _ _ (ix2 p l) 0 (by show (0 : Nat) < 3; omega) S1600x128 P0 rfl rfl 0 rfl
      (ix2 p ⟨l.val, h⟩) (fun b hb => by match b with | ⟨0, _⟩ => rfl | ⟨1, _⟩ => exact absurd rfl hb)
      (by show 0 + l.val = l.val; omega)
  · next h =>
    split
    · next h' =>
      refine (concatenate_apply_piece (1 : Fin S1600x384.rank) _ _ (ix2 p l) 1 (by show (1 : Nat) < 3; omega) S1600x128 _ rfl rfl 128 rfl
        (ix2 p ⟨l.val - 128, by omega⟩) (fun b hb => by match b with | ⟨0, _⟩ => rfl | ⟨1, _⟩ => exact absurd rfl hb)
        (by show 128 + (l.val - 128) = l.val; omega)).trans ?_
      rw [shapeCast_self]
    · next h' =>
      refine (concatenate_apply_piece (1 : Fin S1600x384.rank) _ _ (ix2 p l) 2 (by show (2 : Nat) < 3; omega) S1600x128 _ rfl rfl 256 rfl
        (ix2 p ⟨l.val - 256, by have := l.isLt; omega⟩) (fun b hb => by match b with | ⟨0, _⟩ => rfl | ⟨1, _⟩ => exact absurd rfl hb)
        (by show 256 + (l.val - 256) = l.val; omega)).trans ?_
      rw [shapeCast_self]

/-! ## The body's value, layer by layer -/

section Layers

variable (P0 P1 P2 : Vec Ideal S1600x128 .f32) (P3 : Vec Ideal S384x256 .f32) (P4 : Vec Ideal S1x256 .f32)
  (P5 : Vec Ideal S256x128 .f32) (P6 : Vec Ideal S1x128 .f32)

/-- The 1600 joined rows. -/
def joined : FVec Ideal S1600x384 .f32 :=
  concatenate S1600x384 1 [⟨S1600x128, P0⟩, ⟨S1600x128, shapeCast S1600x128 P1 shapeCasts_S1600x128_S1600x128⟩,
      ⟨S1600x128, shapeCast S1600x128 P2 shapeCasts_S1600x128_S1600x128⟩]
    concatenates_S1600x128_S1600x128_S1600x128_S1600x384_d1

/-- The first layer before its activation: the joined rows times `P3`, plus the bias row `P4`. -/
def layer1 : FVec Ideal S1600x256 .f32 :=
  addf (matmul dot_S1600x384_S384x256_S1600x256_1_0_0_1_n_n none (truncf .bf16 (joined P0 P1 P2) bitsLt_bf16_f32) (truncf .bf16 P3 bitsLt_bf16_f32)
      (constant S1600x256 .f32 0x00000000#32))
    (broadcastTo S1600x256 (shapeCast S1x256 P4 shapeCasts_S1x256_S1x256) broadcasts_S1x256_S1600x256)

/-- Its SiLU. -/
def act : FVec Ideal S1600x256 .f32 := mulf (layer1 P0 P1 P2 P3 P4) (logistic (layer1 P0 P1 P2 P3 P4))

/-- The second layer: the activations times `P5`, plus the bias row `P6`. -/
def layer2 : FVec Ideal S1600x128 .f32 :=
  addf (matmul dot_S1600x256_S256x128_S1600x128_1_0_0_1_n_n none (truncf .bf16 (act P0 P1 P2 P3 P4) bitsLt_bf16_f32) (truncf .bf16 P5 bitsLt_bf16_f32)
      (constant S1600x128 .f32 0x00000000#32))
    (broadcastTo S1600x128 (shapeCast S1x128 P6 shapeCasts_S1x128_S1x128) broadcasts_S1x128_S1600x128)

/-- The body's first carried value is the second layer minus its row means. -/
theorem pay2_eq : k0_pay2 P0 P1 P2 P3 P4 P5 P6
    = subf (layer2 P0 P1 P2 P3 P4 P5 P6) (broadcastTo S1600x128 (divf (shapeCast S1600x1 (multiReduction .add [1] S1600
        (layer2 P0 P1 P2 P3 P4 P5 P6) 0x00000000#32 reduces_S1600x128_S1600 (.inl rfl) rfl) shapeCasts_S1600_S1600x1)
        (broadcast S1600x1 (Scalar.ofBits .f32 0x43000000#32))) broadcasts_S1600x1_S1600x128) := rfl

/-- The three feature rows of block row `p`, and the parameters as matrices and rows. -/
abbrev rowE (p : Fin 1600) : Fin 128 → EReal := fun q => P0 (ix2 p q)
abbrev rowS (p : Fin 1600) : Fin 128 → EReal := fun q => P1 (ix2 p q)
abbrev rowD (p : Fin 1600) : Fin 128 → EReal := fun q => P2 (ix2 p q)
abbrev matW1 : Fin 384 → Fin 256 → EReal := fun l k => P3 (ix2 l k)
abbrev rowB1 : Fin 256 → EReal := fun k => P4 (ix2 0 k)
abbrev matW2 : Fin 256 → Fin 128 → EReal := fun k j => P5 (ix2 k j)
abbrev rowB2 : Fin 128 → EReal := fun j => P6 (ix2 0 j)

theorem layer1_apply (p : Fin 1600) (k : Fin 256) :
    layer1 P0 P1 P2 P3 P4 (ix2 p k) = hidden (catRow (rowE P0 p) (rowS P1 p) (rowD P2 p)) (matW1 P3) (rowB1 P4) k := by
  unfold layer1 hidden
  rw [addf_apply, product1_apply, broadcastTo_1b_ab_apply, shapeCast_self]
  refine congrArg (· + P4 (ix2 0 k)) (Finset.sum_congr rfl fun l _ => ?_)
  rw [truncf_apply, truncf_apply]
  exact congrArg (· * P3 (ix2 l k)) (joined_apply P0 P1 P2 p l)

theorem act_apply (p : Fin 1600) (k : Fin 256) :
    act P0 P1 P2 P3 P4 (ix2 p k) = silu (hidden (catRow (rowE P0 p) (rowS P1 p) (rowD P2 p)) (matW1 P3) (rowB1 P4) k) := by
  unfold act silu
  rw [mulf_apply]
  show layer1 P0 P1 P2 P3 P4 (ix2 p k) * Ideal.logistic (layer1 P0 P1 P2 P3 P4 (ix2 p k)) = _
  rw [layer1_apply]

theorem layer2_apply (p : Fin 1600) (j : Fin 128) :
    layer2 P0 P1 P2 P3 P4 P5 P6 (ix2 p j)
      = preNorm (rowE P0 p) (rowS P1 p) (rowD P2 p) (matW1 P3) (rowB1 P4) (matW2 P5) (rowB2 P6) j := by
  unfold layer2 preNorm proj
  rw [addf_apply, product2_apply, broadcastTo_1b_ab_apply, shapeCast_self]
  refine congrArg (· + P6 (ix2 0 j)) (Finset.sum_congr rfl fun k _ => ?_)
  rw [truncf_apply, truncf_apply, act_apply]

/-- The carried value at `(p, j)`: the second layer's row `p`, centred, at `j`. -/
theorem pay2_apply (p : Fin 1600) (j : Fin 128) :
    k0_pay2 P0 P1 P2 P3 P4 P5 P6 (ix2 p j)
      = centred (preNorm (rowE P0 p) (rowS P1 p) (rowD P2 p) (matW1 P3) (rowB1 P4) (matW2 P5) (rowB2 P6)) j := by
  rw [pay2_eq, subf_apply, broadcastTo_a1_ab_apply, divf_apply, shapeCast_a_a1_apply, rowSum_apply, layer2_apply]
  unfold centred mean
  refine congrArg (fun s => _ - Ideal.div s c128) (Finset.sum_congr rfl fun q _ => ?_)
  exact layer2_apply P0 P1 P2 P3 P4 P5 P6 p q

end Layers

/-- What the body stores at block index `(p, j)`, as the generated value leg names it (`E9` of the nine loaded blocks):
    the centred second-layer row times its reciprocal standard deviation, scaled and shifted. -/
theorem block_entry_at (P0 P1 P2 : Vec Ideal S1600x128 .f32) (P3 : Vec Ideal S384x256 .f32) (P4 : Vec Ideal S1x256 .f32)
    (P5 : Vec Ideal S256x128 .f32) (P6 P7 P8 : Vec Ideal S1x128 .f32) (p : Fin 1600) (j : Fin 128) :
    Cert.KernelIdeal.Value.E9 P0 P1 P2 P3 P4 P5 P6 P7 P8 (ix2 p j)
      = edgeRow (fun q => P0 (ix2 p q)) (fun q => P1 (ix2 p q)) (fun q => P2 (ix2 p q))
          (fun l k => P3 (ix2 l k)) (fun k => P4 (ix2 0 k)) (fun k j => P5 (ix2 k j))
          (fun j => P6 (ix2 0 j)) (fun j => P7 (ix2 0 j)) (fun j => P8 (ix2 0 j)) j := by
  have e0 : Cert.KernelIdeal.Value.ix9_0 (ix2 p j) = ix2 p j :=
    funext fun a => Fin.ext (by match a with | ⟨0, _⟩ => rfl | ⟨1, _⟩ => rfl)
  have e1 : Cert.KernelIdeal.Value.ix9_1 (ix2 p j) = ix1 p :=
    funext fun a => Fin.ext (by match a with | ⟨0, _⟩ => rfl)
  have e2 : Cert.KernelIdeal.Value.ix9_2 (ix2 p j) = ix2 (0 : Fin 1) j :=
    funext fun a => Fin.ext (by match a with | ⟨0, _⟩ => rfl | ⟨1, _⟩ => rfl)
  have e3 : Cert.KernelIdeal.Value.ix9_3 (ix2 p j) = ix2 (0 : Fin 1) j :=
    funext fun a => Fin.ext (by match a with | ⟨0, _⟩ => rfl | ⟨1, _⟩ => rfl)
  show (k0_pay2 P0 P1 P2 P3 P4 P5 P6 (Cert.KernelIdeal.Value.ix9_0 (ix2 p j))
        * Ideal.rsqrt (Ideal.div (multiReduction .add [1] S1600 (mulf (k0_pay2 P0 P1 P2 P3 P4 P5 P6) (k0_pay2 P0 P1 P2 P3 P4 P5 P6))
            0x00000000#32 reduces_S1600x128_S1600 (.inl rfl) rfl (Cert.KernelIdeal.Value.ix9_1 (ix2 p j))) c128 + cEps))
      * P7 (Cert.KernelIdeal.Value.ix9_2 (ix2 p j)) + P8 (Cert.KernelIdeal.Value.ix9_3 (ix2 p j)) = _
  rw [e0, e1, e2, e3, pay2_apply, rowSum_apply]
  unfold edgeRow layerNorm rstd mean
  refine congrArg (fun s => centred _ j * Ideal.rsqrt (Ideal.div s c128 + cEps) * P7 (ix2 0 j) + P8 (ix2 0 j))
    (Finset.sum_congr rfl fun q _ => ?_)
  rw [mulf_apply, pay2_apply]

/-- The same at any block index `y`: the network on row `y 0` of the three feature blocks at feature `y 1`. -/
theorem block_entry (P0 P1 P2 : Vec Ideal S1600x128 .f32) (P3 : Vec Ideal S384x256 .f32) (P4 : Vec Ideal S1x256 .f32)
    (P5 : Vec Ideal S256x128 .f32) (P6 P7 P8 : Vec Ideal S1x128 .f32) (y : S1600x128.Idx) :
    Cert.KernelIdeal.Value.E9 P0 P1 P2 P3 P4 P5 P6 P7 P8 y
      = edgeRow (fun q => P0 (ix2 (y 0) q)) (fun q => P1 (ix2 (y 0) q)) (fun q => P2 (ix2 (y 0) q))
          (fun l k => P3 (ix2 l k)) (fun k => P4 (ix2 0 k)) (fun k j => P5 (ix2 k j))
          (fun j => P6 (ix2 0 j)) (fun j => P7 (ix2 0 j)) (fun j => P8 (ix2 0 j)) (y 1) := by
  obtain ⟨p, j, rfl⟩ : ∃ (p : Fin 1600) (j : Fin 128), y = ix2 p j := ⟨y 0, y 1, eq_ix2 y⟩
  exact block_entry_at P0 P1 P2 P3 P4 P5 P6 P7 P8 p j

end Cert.EdgeMlp.KernelSide

end
-- ==== Proof.KernelArray.lean ====
/-
  From the kernel's blocks to the whole array.

  The kernel runs over 250 grid points; point `t` holds rows `1600 t … 1600 t + 1599` of the edge features and of the two
  gathered node feature arrays, together with the whole of the two weight matrices and of the four parameter rows, and
  writes rows `1600 t … 1600 t + 1599` of the result. Before the grid runs, the host gathers the node rows (an id below zero
  is first moved up by the number of nodes) and lays each parameter vector out as a `1 × n` array. Read a row at a time
  (`block_entry`), what point `t` writes is block `t` of ONE function of the argument arrays: the edge network `G` of
  `EdgeMlpSpec` on the edge features, the two gathered arrays, the weights and the parameters. The 250 blocks cover the
  `400000 × 128` result, so after the run the result array is `G`.
-/
import proofs.«108960_j76390288327364_1_alg».proof.Proof.KernelRow
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.EdgeMlp.KernelSide

open Cert.KernelIdeal Cert.KernelIdeal.Gen Cert.KernelIdeal.Value Idealize.ShloMosaic Idealize.ShloMosaic.TcCoe
open Idealize.SL.Sem Idealize.ShloMosaic.ValueIdx Cert.EdgeMlp
open Idealize.ShloMosaic.Pipeline (Dat)

/-! ## The host's work before the grid -/

/-- The gathered node rows: row `r` of the result is row `ids r` of the node features `nf`, an id below zero first
    moved up by the number of nodes, 100000 (the composed term of @main's operations up to the gather). -/
def gatherRows {F : FTy → Type} [FloatOps F] (nf : (⟨S100000x128, .f32⟩ : BufTy).Contents (Elt F))
    (ids : (⟨S400000, .i32⟩ : BufTy).Contents (Elt F)) : (⟨S400000x128, .f32⟩ : BufTy).Contents (Elt F) :=
  Host.gather gather_S100000x128_S400000x1_S400000x128_1_0_n_n_0_1_1128 nf
    (broadcastInDim S400000x1 ![0] bcast_S400000_S400000x1_0
      (select (cmpi .slt ids (broadcastInDim S400000 ![] bcast_S_S400000 (constantI S_ 32 0#32)))
        (addi ids (broadcastInDim S400000 ![] bcast_S_S400000 (constantI S_ 32 100000#32))) ids))

variable (m : (ℓ : Loc nD τ sig) → Buf (Elt Ideal) ℓ) (ρ : Dev nD → PrngReg)

/-- When the grid starts, the source rows' array is the node features gathered at the source ids. -/
theorem V_src (c : Dev nD) :
    (V m c main_v6 : S400000x128.Idx → EReal)
      = gatherRows (m ((c : Thread nD τ).loc main_arg1)) (m ((c : Thread nD τ).loc main_arg2)) := by
  dsimp only [Gen.V, Gen.hostOps0]; after_results; rfl

/-- When the grid starts, the destination rows' array is the node features gathered at the destination ids. -/
theorem V_dst (c : Dev nD) :
    (V m c main_v13 : S400000x128.Idx → EReal)
      = gatherRows (m ((c : Thread nD τ).loc main_arg1)) (m ((c : Thread nD τ).loc main_arg3)) := by
  dsimp only [Gen.V, Gen.hostOps0]; after_results; rfl

/-- When the grid starts, the first bias's `1 × 256` array holds the bias vector in row-major order. -/
theorem V_b1 (c : Dev nD) :
    (V m c main_v14 : S1x256.Idx → EReal)
      = shapeCast S1x256 (m ((c : Thread nD τ).loc main_arg5) : S256.Idx → EReal) shapeCasts_S256_S1x256 := by
  dsimp only [Gen.V, Gen.hostOps0]; after_results; rfl

/-- When the grid starts, the second bias's `1 × 128` array holds the bias vector in row-major order. -/
theorem V_b2 (c : Dev nD) :
    (V m c main_v15 : S1x128.Idx → EReal)
      = shapeCast S1x128 (m ((c : Thread nD τ).loc main_arg7) : S128.Idx → EReal) shapeCasts_S128_S1x128 := by
  dsimp only [Gen.V, Gen.hostOps0]; after_results; rfl

/-- When the grid starts, the scale's `1 × 128` array holds the scale vector in row-major order. -/
theorem V_gamma (c : Dev nD) :
    (V m c main_v16 : S1x128.Idx → EReal)
      = shapeCast S1x128 (m ((c : Thread nD τ).loc main_arg8) : S128.Idx → EReal) shapeCasts_S128_S1x128 := by
  dsimp only [Gen.V, Gen.hostOps0]; after_results; rfl

/-- When the grid starts, the shift's `1 × 128` array holds the shift vector in row-major order. -/
theorem V_beta (c : Dev nD) :
    (V m c main_v17 : S1x128.Idx → EReal)
      = shapeCast S1x128 (m ((c : Thread nD τ).loc main_arg9) : S128.Idx → EReal) shapeCasts_S128_S1x128 := by
  dsimp only [Gen.V, Gen.hostOps0]; after_results; rfl

/-- Entry `(0, k)` of the first bias's `1 × 256` array is entry `k` of the bias vector. -/
theorem V_b1_apply (c : Dev nD) (k : Fin 256) :
    (V m c main_v14 : S1x256.Idx → EReal) (ix2 (0 : Fin 1) k) = (m ((c : Thread nD τ).loc main_arg5) : S256.Idx → EReal) (ix1 k) := by
  rw [V_b1]; exact shapeCast_a_1a_apply _ _ 0 k

/-- Entry `(0, j)` of the second bias's `1 × 128` array is entry `j` of the bias vector. -/
theorem V_b2_apply (c : Dev nD) (j : Fin 128) :
    (V m c main_v15 : S1x128.Idx → EReal) (ix2 (0 : Fin 1) j) = (m ((c : Thread nD τ).loc main_arg7) : S128.Idx → EReal) (ix1 j) := by
  rw [V_b2]; exact shapeCast_a_1a_apply _ _ 0 j

/-- Entry `(0, j)` of the scale's `1 × 128` array is entry `j` of the scale vector. -/
theorem V_gamma_apply (c : Dev nD) (j : Fin 128) :
    (V m c main_v16 : S1x128.Idx → EReal) (ix2 (0 : Fin 1) j) = (m ((c : Thread nD τ).loc main_arg8) : S128.Idx → EReal) (ix1 j) := by
  rw [V_gamma]; exact shapeCast_a_1a_apply _ _ 0 j

/-- Entry `(0, j)` of the shift's `1 × 128` array is entry `j` of the shift vector. -/
theorem V_beta_apply (c : Dev nD) (j : Fin 128) :
    (V m c main_v17 : S1x128.Idx → EReal) (ix2 (0 : Fin 1) j) = (m ((c : Thread nD τ).loc main_arg9) : S128.Idx → EReal) (ix1 j) := by
  rw [V_beta]; exact shapeCast_a_1a_apply _ _ 0 j

/-! ## Where each block sits in its array -/

/-- The printed index maps, decided over the 250 grid points: the three feature windows and the result window move
    down the rows with the point (block index `(t, 0)`), the weights and the parameter rows stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row `p` of point `t`'s block of the edge features is row `1600 t + p` of the array. -/
theorem read_edge (c : Dev nD) (t : Fin cfg0.N) (p : Fin 1600) (q : Fin 128) (r : Fin 400000)
    (hr : r.val = t.val * 1600 + p.val) :
    (iblk m c 0 t : Vec Ideal S1600x128 .f32) (ix2 p q)
      = (m ((c : Thread nD τ).loc main_arg0) : S400000x128.Idx → EReal) (ix2 r q) := by
  obtain ⟨e0, e1, -⟩ := idx_facts t
  unfold iblk
  rw [View.read_apply]
  show V m c main_arg0 (((cfg0.win 0).blk t).view.emb (ix2 p q)) = _
  rw [V_main_arg0]
  congr 1
  funext a; apply Fin.ext
  match a with
  | ⟨0, _⟩ => show win0_0.index t (0 : Fin 2) * 1600 + 1 * p.val = r.val; omega
  | ⟨1, _⟩ => show win0_0.index t (1 : Fin 2) * 128 + 1 * q.val = q.val; omega

/-- Row `p` of point `t`'s block of the source rows is row `1600 t + p` of the node features gathered at the source ids. -/
theorem read_src (c : Dev nD) (t : Fin cfg0.N) (p : Fin 1600) (q : Fin 128) (r : Fin 400000)
    (hr : r.val = t.val * 1600 + p.val) :
    (iblk m c 1 t : Vec Ideal S1600x128 .f32) (ix2 p q)
      = gatherRows (m ((c : Thread nD τ).loc main_arg1)) (m ((c : Thread nD τ).loc main_arg2)) (ix2 r q) := by
  obtain ⟨-, -, e0, e1, -⟩ := idx_facts t
  unfold iblk
  rw [View.read_apply]
  show (V m c main_v6 : S400000x128.Idx → EReal) (((cfg0.win 1).blk t).view.emb (ix2 p q)) = _
  rw [V_src]
  congr 1
  funext a; apply Fin.ext
  match a with
  | ⟨0, _⟩ => show win0_1.index t (0 : Fin 2) * 1600 + 1 * p.val = r.val; omega
  | ⟨1, _⟩ => show win0_1.index t (1 : Fin 2) * 128 + 1 * q.val = q.val; omega

/-- Row `p` of point `t`'s block of the destination rows is row `1600 t + p` of the node features gathered at the destination ids. -/
theorem read_dst (c : Dev nD) (t : Fin cfg0.N) (p : Fin 1600) (q : Fin 128) (r : Fin 400000)
    (hr : r.val = t.val * 1600 + p.val) :
    (iblk m c 2 t : Vec Ideal S1600x128 .f32) (ix2 p q)
      = gatherRows (m ((c : Thread nD τ).loc main_arg1)) (m ((c : Thread nD τ).loc main_arg3)) (ix2 r q) := by
  obtain ⟨-, -, -, -, e0, e1, -⟩ := idx_facts t
  unfold iblk
  rw [View.read_apply]
  show (V m c main_v13 : S400000x128.Idx → EReal) (((cfg0.win 2).blk t).view.emb (ix2 p q)) = _
  rw [V_dst]
  congr 1
  funext a; apply Fin.ext
  match a with
  | ⟨0, _⟩ => show win0_2.index t (0 : Fin 2) * 1600 + 1 * p.val = r.val; omega
  | ⟨1, _⟩ => show win0_2.index t (1 : Fin 2) * 128 + 1 * q.val = q.val; omega

/-- Every point's block of the first weight matrix is the whole matrix. -/
theorem read_W1 (c : Dev nD) (t : Fin cfg0.N) (l : Fin 384) (k : Fin 256) :
    (iblk m c 3 t : Vec Ideal S384x256 .f32) (ix2 l k)
      = (m ((c : Thread nD τ).loc main_arg4) : S384x256.Idx → EReal) (ix2 l k) := by
  obtain ⟨-, -, -, -, -, -, e0, e1, -⟩ := idx_facts t
  unfold iblk
  rw [View.read_apply]
  show V m c main_arg4 (((cfg0.win 3).blk t).view.emb (ix2 l k)) = _
  rw [V_main_arg4]
  congr 1
  funext a; apply Fin.ext
  match a with
  | ⟨0, _⟩ => show win0_3.index t (0 : Fin 2) * 384 + 1 * l.val = l.val; omega
  | ⟨1, _⟩ => show win0_3.index t (1 : Fin 2) * 256 + 1 * k.val = k.val; omega

/-- Every point's block of the second weight matrix is the whole matrix. -/
theorem read_W2 (c : Dev nD) (t : Fin cfg0.N) (l : Fin 256) (k : Fin 128) :
    (iblk m c 5 t : Vec Ideal S256x128 .f32) (ix2 l k)
      = (m ((c : Thread nD τ).loc main_arg6) : S256x128.Idx → EReal) (ix2 l k) := by
  obtain ⟨-, -, -, -, -, -, -, -, -, -, e0, e1, -⟩ := idx_facts t
  unfold iblk
  rw [View.read_apply]
  show V m c main_arg6 (((cfg0.win 5).blk t).view.emb (ix2 l k)) = _
  rw [V_main_arg6]
  congr 1
  funext a; apply Fin.ext
  match a with
  | ⟨0, _⟩ => show win0_5.index t (0 : Fin 2) * 256 + 1 * l.val = l.val; omega
  | ⟨1, _⟩ => show win0_5.index t (1 : Fin 2) * 128 + 1 * k.val = k.val; omega

/-- Every point's block of the first bias's `1 × 256` array is the bias vector. -/
theorem read_b1 (c : Dev nD) (t : Fin cfg0.N) (k : Fin 256) :
    (iblk m c 4 t : Vec Ideal S1x256 .f32) (ix2 (0 : Fin 1) k)
      = (m ((c : Thread nD τ).loc main_arg5) : S256.Idx → EReal) (ix1 k) := by
  obtain ⟨-, -, -, -, -, -, -, -, e0, e1, -⟩ := idx_facts t
  unfold iblk
  rw [View.read_apply]
  show (V m c main_v14 : S1x256.Idx → EReal) (((cfg0.win 4).blk t).view.emb (ix2 (0 : Fin 1) k)) = _
  refine Eq.trans ?_ (V_b1_apply m c k)
  congr 1
  funext a; apply Fin.ext
  match a with
  | ⟨0, _⟩ => show win0_4.index t (0 : Fin 2) * 1 + 1 * 0 = 0; omega
  | ⟨1, _⟩ => show win0_4.index t (1 : Fin 2) * 256 + 1 * k.val = k.val; omega

/-- Every point's block of the second bias's `1 × 128` array is the bias vector. -/
theorem read_b2 (c : Dev nD) (t : Fin cfg0.N) (k : Fin 128) :
    (iblk m c 6 t : Vec Ideal S1x128 .f32) (ix2 (0 : Fin 1) k)
      = (m ((c : Thread nD τ).loc main_arg7) : S128.Idx → EReal) (ix1 k) := by
  obtain ⟨-, -, -, -, -, -, -, -, -, -, -, -, e0, e1, -⟩ := idx_facts t
  unfold iblk
  rw [View.read_apply]
  show (V m c main_v15 : S1x128.Idx → EReal) (((cfg0.win 6).blk t).view.emb (ix2 (0 : Fin 1) k)) = _
  refine Eq.trans ?_ (V_b2_apply m c k)
  congr 1
  funext a; apply Fin.ext
  match a with
  | ⟨0, _⟩ => show win0_6.index t (0 : Fin 2) * 1 + 1 * 0 = 0; omega
  | ⟨1, _⟩ => show win0_6.index t (1 : Fin 2) * 128 + 1 * k.val = k.val; omega

/-- Every point's block of the scale's `1 × 128` array is the scale vector. -/
theorem read_gamma (c : Dev nD) (t : Fin cfg0.N) (k : Fin 128) :
    (iblk m c 7 t : Vec Ideal S1x128 .f32) (ix2 (0 : Fin 1) k)
      = (m ((c : Thread nD τ).loc main_arg8) : S128.Idx → EReal) (ix1 k) := by
  obtain ⟨-, -, -, -, -, -, -, -, -, -, -, -, -, -, e0, e1, -⟩ := idx_facts t
  unfold iblk
  rw [View.read_apply]
  show (V m c main_v16 : S1x128.Idx → EReal) (((cfg0.win 7).blk t).view.emb (ix2 (0 : Fin 1) k)) = _
  refine Eq.trans ?_ (V_gamma_apply m c k)
  congr 1
  funext a; apply Fin.ext
  match a with
  | ⟨0, _⟩ => show win0_7.index t (0 : Fin 2) * 1 + 1 * 0 = 0; omega
  | ⟨1, _⟩ => show win0_7.index t (1 : Fin 2) * 128 + 1 * k.val = k.val; omega

/-- Every point's block of the shift's `1 × 128` array is the shift vector. -/
theorem read_beta (c : Dev nD) (t : Fin cfg0.N) (k : Fin 128) :
    (iblk m c 8 t : Vec Ideal S1x128 .f32) (ix2 (0 : Fin 1) k)
      = (m ((c : Thread nD τ).loc main_arg9) : S128.Idx → EReal) (ix1 k) := by
  obtain ⟨-, -, -, -, -, -, -, -, -, -, -, -, -, -, -, -, e0, e1, -⟩ := idx_facts t
  unfold iblk
  rw [View.read_apply]
  show (V m c main_v17 : S1x128.Idx → EReal) (((cfg0.win 8).blk t).view.emb (ix2 (0 : Fin 1) k)) = _
  refine Eq.trans ?_ (V_beta_apply m c k)
  congr 1
  funext a; apply Fin.ext
  match a with
  | ⟨0, _⟩ => show win0_8.index t (0 : Fin 2) * 1 + 1 * 0 = 0; omega
  | ⟨1, _⟩ => show win0_8.index t (1 : Fin 2) * 128 + 1 * k.val = k.val; omega

/-! ## What a point writes back -/

/-- The offsets of every whole-block access of the body are zero. -/
theorem zero_off : (![0, 0] : Fin 2 → Nat) = fun _ => 0 :=
  funext fun a => match a with | ⟨0, _⟩ => rfl | ⟨1, _⟩ => rfl

/-- What the body leaves in the result block, entry by entry, for arbitrary loaded blocks: the network on row `y 0` of
    the three feature blocks at feature `y 1` (every load reads a whole block; the one store writes the whole block). -/
theorem out_entry (x0 x1 x2 : Vec Ideal S1600x128 .f32) (x3 : Vec Ideal S384x256 .f32) (x4 : Vec Ideal S1x256 .f32)
    (x5 : Vec Ideal S256x128 .f32) (x6 x7 x8 : Vec Ideal S1x128 .f32) (y : S1600x128.Idx) :
    out0_9 x0 x1 x2 x3 x4 x5 x6 x7 x8 y
      = edgeRow (fun q => x0 (ix2 (y 0) q)) (fun q => x1 (ix2 (y 0) q)) (fun q => x2 (ix2 (y 0) q))
          (fun l k => x3 (ix2 l k)) (fun k => x4 (ix2 0 k)) (fun k j => x5 (ix2 k j))
          (fun j => x6 (ix2 0 j)) (fun j => x7 (ix2 0 j)) (fun j => x8 (ix2 0 j)) (y 1) := by
  unfold out0_9
  simp only [View.ld_unit_zero (S := S1600x128) zero_off, View.ld_unit_zero (S := S384x256) zero_off,
    View.ld_unit_zero (S := S1x256) zero_off, View.ld_unit_zero (S := S256x128) zero_off,
    View.ld_unit_zero (S := S1x128) zero_off]
  rw [Value.canon9_eq]
  exact block_entry x0 x1 x2 x3 x4 x5 x6 x7 x8 y

/-- Entry `(p, j)` of what point `t` leaves in the result block is entry `(1600 t + p, j)` of `G` of the argument
    arrays: each loaded block is read off its array where the point's block index puts it. -/
theorem point_entry (c : Dev nD) (t : Fin cfg0.N) (p : Fin 1600) (j : Fin 128) (r : Fin 400000)
    (hr : r.val = t.val * 1600 + p.val) :
    out0_9 (iblk m c 0 t) (iblk m c 1 t) (iblk m c 2 t) (iblk m c 3 t) (iblk m c 4 t) (iblk m c 5 t) (iblk m c 6 t) (iblk m c 7 t) (iblk m c 8 t) (ix2 p j)
      = G (m ((c : Thread nD τ).loc main_arg0))
        (gatherRows (m ((c : Thread nD τ).loc main_arg1)) (m ((c : Thread nD τ).loc main_arg2)))
        (gatherRows (m ((c : Thread nD τ).loc main_arg1)) (m ((c : Thread nD τ).loc main_arg3)))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (ix2 r j) := by
  refine (out_entry (iblk m c 0 t) (iblk m c 1 t) (iblk m c 2 t) (iblk m c 3 t) (iblk m c 4 t) (iblk m c 5 t) (iblk m c 6 t) (iblk m c 7 t) (iblk m c 8 t) (ix2 p j)).trans ?_
  show edgeRow (fun q => (iblk m c 0 t : Vec Ideal S1600x128 .f32) (ix2 p q))
      (fun q => (iblk m c 1 t : Vec Ideal S1600x128 .f32) (ix2 p q))
      (fun q => (iblk m c 2 t : Vec Ideal S1600x128 .f32) (ix2 p q))
      (fun l k => (iblk m c 3 t : Vec Ideal S384x256 .f32) (ix2 l k))
      (fun k => (iblk m c 4 t : Vec Ideal S1x256 .f32) (ix2 (0 : Fin 1) k))
      (fun k j => (iblk m c 5 t : Vec Ideal S256x128 .f32) (ix2 k j))
      (fun j => (iblk m c 6 t : Vec Ideal S1x128 .f32) (ix2 (0 : Fin 1) j))
      (fun j => (iblk m c 7 t : Vec Ideal S1x128 .f32) (ix2 (0 : Fin 1) j))
      (fun j => (iblk m c 8 t : Vec Ideal S1x128 .f32) (ix2 (0 : Fin 1) j)) j
    = edgeRow (fun q => (m ((c : Thread nD τ).loc main_arg0) : S400000x128.Idx → EReal) (ix2 r q))
      (fun q => gatherRows (m ((c : Thread nD τ).loc main_arg1)) (m ((c : Thread nD τ).loc main_arg2)) (ix2 r q))
      (fun q => gatherRows (m ((c : Thread nD τ).loc main_arg1)) (m ((c : Thread nD τ).loc main_arg3)) (ix2 r q))
      (fun l k => (m ((c : Thread nD τ).loc main_arg4) : S384x256.Idx → EReal) (ix2 l k))
      (fun k => (m ((c : Thread nD τ).loc main_arg5) : S256.Idx → EReal) (ix1 k))
      (fun k j => (m ((c : Thread nD τ).loc main_arg6) : S256x128.Idx → EReal) (ix2 k j))
      (fun j => (m ((c : Thread nD τ).loc main_arg7) : S128.Idx → EReal) (ix1 j))
      (fun j => (m ((c : Thread nD τ).loc main_arg8) : S128.Idx → EReal) (ix1 j))
      (fun j => (m ((c : Thread nD τ).loc main_arg9) : S128.Idx → EReal) (ix1 j)) j
  rw [funext fun q => read_edge m c t p q r hr, funext fun q => read_src m c t p q r hr,
    funext fun q => read_dst m c t p q r hr, funext fun l => funext fun k => read_W1 m c t l k,
    funext fun k => read_b1 m c t k, funext fun k => funext fun j => read_W2 m c t k j,
    funext fun j => read_b2 m c t j, funext fun j => read_gamma m c t j, funext fun j => read_beta m c t j]

/-- Entry `(p, j)` of point `t`'s block of the result array is entry `(1600 t + p, j)` of the array. -/
theorem emb_out (t : Fin cfg0.N) (p : Fin 1600) (j : Fin 128) (r : Fin 400000) (hr : r.val = t.val * 1600 + p.val) :
    (((cfg0.win 9).blk t).view.emb (ix2 p j) : S400000x128.Idx) = ix2 r j := by
  obtain ⟨-, -, -, -, -, -, -, -, -, -, -, -, -, -, -, -, -, -, e0, e1⟩ := idx_facts t
  funext a; apply Fin.ext
  match a with
  | ⟨0, _⟩ => show win0_9.index t (0 : Fin 2) * 1600 + 1 * p.val = r.val; omega
  | ⟨1, _⟩ => show win0_9.index t (1 : Fin 2) * 128 + 1 * j.val = j.val; omega

/-- WHAT POINT `t` WRITES BACK is block `t` of `G` of the argument arrays. -/
theorem flushed_eq (c : Dev nD) (t : Fin cfg0.N) :
    (dats m 0 c).flushed 9 t = ((cfg0.win 9).blk t).view.read (Elt Ideal)
      (G (m ((c : Thread nD τ).loc main_arg0))
        (gatherRows (m ((c : Thread nD τ).loc main_arg1)) (m ((c : Thread nD τ).loc main_arg2)))
        (gatherRows (m ((c : Thread nD τ).loc main_arg1)) (m ((c : Thread nD τ).loc main_arg3)))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))) := by
  rw [Value.flushed9]
  funext y
  have ht : t.val < 250 := Nat.lt_of_lt_of_eq t.isLt N_0
  obtain ⟨p, j, rfl⟩ : ∃ (p : Fin 1600) (j : Fin 128), y = ix2 p j := ⟨y 0, y 1, eq_ix2 y⟩
  have hp : p.val < 1600 := p.isLt
  show out0_9 (iblk m c 0 t) (iblk m c 1 t) (iblk m c 2 t) (iblk m c 3 t) (iblk m c 4 t) (iblk m c 5 t) (iblk m c 6 t) (iblk m c 7 t) (iblk m c 8 t) (ix2 p j)
      = G (m ((c : Thread nD τ).loc main_arg0))
        (gatherRows (m ((c : Thread nD τ).loc main_arg1)) (m ((c : Thread nD τ).loc main_arg2)))
        (gatherRows (m ((c : Thread nD τ).loc main_arg1)) (m ((c : Thread nD τ).loc main_arg3)))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (((cfg0.win 9).blk t).view.emb (ix2 p j) : S400000x128.Idx)
  rw [emb_out t p j ⟨t.val * 1600 + p.val, by omega⟩ rfl]
  exact point_entry m c t p j ⟨t.val * 1600 + p.val, by omega⟩ rfl

/-! ## The blocks cover the array -/

/-- An index of the result array is in point `t`'s block iff each coordinate is in the block's range on its axis. -/
theorem mem_blk (t : Fin cfg0.N) (i : S400000x128.Idx) :
    i ∈ ((cfg0.win 9).blk t).view.set ↔ ∀ a : Fin 2, win0_9.index t a * S1600x128.size a ≤ (i a).val
      ∧ (i a).val < win0_9.index t a * S1600x128.size a + S1600x128.size a := by
  show i ∈ ((View.whole main_v18).slice (win0_9.rect t)).set ↔ _
  rw [View.set_slice_whole, Rect.mem_set_unit]
  exact Iff.rfl

/-- Every index `(r, j)` of the result array is in the block of point `r / 1600`, which writes back. -/
theorem covered (i : S400000x128.Idx) :
    ∃ t : Fin cfg0.N, (cfg0.win 9).flush t = true ∧ i ∈ ((cfg0.win 9).blk t).view.set := by
  have hi0 : (i 0).val < 400000 := (i 0).isLt
  have hi1 : (i 1).val < 128 := (i 1).isLt
  obtain ⟨t, ht⟩ : ∃ t : Fin cfg0.N, t.val = (i 0).val / 1600 :=
    ⟨⟨(i 0).val / 1600, by rw [show cfg0.N = 250 from N_0]; omega⟩, rfl⟩
  obtain ⟨-, -, -, -, -, -, -, -, -, -, -, -, -, -, -, -, -, -, e0, e1⟩ := idx_facts t
  refine ⟨t, flush0_9 t, ?_⟩
  rw [mem_blk]
  intro a
  match a with
  | ⟨0, _⟩ =>
    show win0_9.index t (0 : Fin 2) * 1600 ≤ (i 0).val ∧ (i 0).val < win0_9.index t (0 : Fin 2) * 1600 + 1600
    omega
  | ⟨1, _⟩ =>
    show win0_9.index t (1 : Fin 2) * 128 ≤ (i 1).val ∧ (i 1).val < win0_9.index t (1 : Fin 2) * 128 + 128
    omega

/-- THE RESULT ARRAY after the run is `G` of the argument arrays: every point writes block `t` of it, and the blocks
    cover the array. -/
theorem final (c : Dev nD) :
    (dats m 0 c).arrAt 9 cfg0.N
      = G (m ((c : Thread nD τ).loc main_arg0))
        (gatherRows (m ((c : Thread nD τ).loc main_arg1)) (m ((c : Thread nD τ).loc main_arg2)))
        (gatherRows (m ((c : Thread nD τ).loc main_arg1)) (m ((c : Thread nD τ).loc main_arg3)))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) :=
  (dats m 0 c).arrAt_eq_of_cover 9 _ (fun t _ => flushed_eq m c t) covered

/-! ## The run, read -/

/-- The kernel's run: the result array ends at the edge network `G` of the edge features, the node features gathered at
    the source and at the destination ids, the weights and the parameters; the arguments are unchanged. -/
theorem run : θ_run defs (onTc (τ := τ) (main (F := Ideal))) ⟨m, fun _ => 0, ρ⟩ fun r => ∀ c : Dev nD,
      r.2.mem ((c : Thread nD τ).loc main_v18)
        = G (m ((c : Thread nD τ).loc main_arg0))
        (gatherRows (m ((c : Thread nD τ).loc main_arg1)) (m ((c : Thread nD τ).loc main_arg2)))
        (gatherRows (m ((c : Thread nD τ).loc main_arg1)) (m ((c : Thread nD τ).loc main_arg3)))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.EdgeMlp.KernelSide

end
-- ==== Proof.RefRow.lean ====
/-
  The reference program is the edge network of `EdgeMlpSpec`, entry by entry.

  The reference gathers the source and destination node rows (two arrays `GS`, `GD` of the same shape as the edge
  features; they stay unopened here), joins `[E | GS | GD]` along the feature axis, and then applies the two dense
  layers with SiLU between them and LayerNorm at the end as whole-array operations. Read at an entry `(r, j)`, every one
  of those operations depends on row `r` of its operands only, so the result's entry `(r, j)` is the network on row `r`
  of the three feature arrays, at feature `j`: the function `G` of the specification.

  The lemmas below follow the program in order: the joined row is `catRow`; the first layer is `hidden`; its activation
  is `silu`; the second layer is `preNorm`; the row mean, the centred row and the reciprocal standard deviation are
  `mean`, `centred` and `rstd`; the last operation is `layerNorm`. The host's float sums start from the word of 0.0,
  which is the real 0 (`0 + x = x`).
-/
import proofs.«108960_j76390288327364_1_alg».proof.Proof.Gen.ReferenceIdeal.Read
import proofs.«108960_j76390288327364_1_alg».proof.Proof.EdgeMlpSpec
import Idealize.ShloMosaic.Lib.Pipeline.Value
import Idealize.ShloMosaic.Lib.ValueIdx
import Idealize.ShloMosaic.PureOps.Ideal.Laws

noncomputable section

open scoped BigOperators

namespace Cert.EdgeMlp.RefSide

open Cert.ReferenceIdeal Cert.ReferenceIdeal.Read Idealize.ShloMosaic Idealize.ShloMosaic.ValueIdx Cert.EdgeMlp

/-- The join of three arrays of 128 columns along the column axis, read at `(r, l)`: column `l` falls in the first
    piece below 128, in the second below 256, and in the third from 256 on; within its piece it is column `l` less the
    columns before the piece, and the row is `r` in every piece. So row `r` of the join is `catRow` of the three rows. -/
theorem join_entry (E GS GD : (⟨S400000x128, .f32⟩ : BufTy).Contents (Elt Ideal)) (r : Fin 400000) (l : Fin 384) :
    concatenate S400000x384 1 [⟨S400000x128, E⟩, ⟨S400000x128, GS⟩, ⟨S400000x128, GD⟩]
        Gen.concatenates_S400000x128_S400000x128_S400000x128_S400000x384_d1 (ix2 r l)
      = catRow (fun q => E (ix2 r q)) (fun q => GS (ix2 r q)) (fun q => GD (ix2 r q)) l := by
  unfold catRow
  by_cases h : l.val < 128
  · rw [dif_pos h]
    refine concatenate_apply_piece (1 : Fin S400000x384.rank) _ _ (ix2 r l) 0 (by show (0 : Nat) < 3; decide) S400000x128 E rfl rfl 0 rfl
      (ix2 r ⟨l.val, h⟩) (fun b hb => ?_) ?_
    · match b with
      | ⟨0, _⟩ => rfl
      | ⟨1, _⟩ => exact absurd rfl hb
    · exact Nat.zero_add _
  · rw [dif_neg h]
    by_cases h' : l.val < 256
    · rw [dif_pos h']
      refine concatenate_apply_piece (1 : Fin S400000x384.rank) _ _ (ix2 r l) 1 (by show (1 : Nat) < 3; decide) S400000x128 GS rfl rfl 128 rfl
        (ix2 r ⟨l.val - 128, by omega⟩) (fun b hb => ?_) ?_
      · match b with
        | ⟨0, _⟩ => rfl
        | ⟨1, _⟩ => exact absurd rfl hb
      · show 128 + (l.val - 128) = l.val
        omega
    · rw [dif_neg h']
      refine concatenate_apply_piece (1 : Fin S400000x384.rank) _ _ (ix2 r l) 2 (by show (2 : Nat) < 3; decide) S400000x128 GD rfl rfl 256 rfl
        (ix2 r ⟨l.val - 256, by have := l.isLt; omega⟩) (fun b hb => ?_) ?_
      · match b with
        | ⟨0, _⟩ => rfl
        | ⟨1, _⟩ => exact absurd rfl hb
      · show 256 + (l.val - 256) = l.val
        omega

variable (x0 : (⟨S400000x128, .f32⟩ : BufTy).Contents (Elt Ideal)) (x1 : (⟨S100000x128, .f32⟩ : BufTy).Contents (Elt Ideal))
  (x2 x3 : (⟨S400000, .i32⟩ : BufTy).Contents (Elt Ideal)) (x4 : (⟨S384x256, .f32⟩ : BufTy).Contents (Elt Ideal))
  (x5 : (⟨S256, .f32⟩ : BufTy).Contents (Elt Ideal)) (x6 : (⟨S256x128, .f32⟩ : BufTy).Contents (Elt Ideal))
  (x7 x8 x9 : (⟨S128, .f32⟩ : BufTy).Contents (Elt Ideal))

/-- Row `r` of the joined array `[E | GS | GD]`, with `GS` and `GD` the two gathered node feature arrays. -/
abbrev xRow (r : Fin 400000) : Fin 384 → EReal :=
  catRow (fun q => x0 (ix2 r q)) (fun q => val_main_v6 (F := Ideal) x1 x2 (ix2 r q))
    (fun q => val_main_v13 (F := Ideal) x1 x3 (ix2 r q))

/-- Row `r` after the second layer, before LayerNorm. -/
abbrev yRow (r : Fin 400000) : Fin 128 → EReal :=
  preNorm (fun q => x0 (ix2 r q)) (fun q => val_main_v6 (F := Ideal) x1 x2 (ix2 r q))
    (fun q => val_main_v13 (F := Ideal) x1 x3 (ix2 r q)) (fun l k => x4 (ix2 l k)) (fun k => x5 (ix1 k))
    (fun k j => x6 (ix2 k j)) (fun j => x7 (ix1 j))

/-- The joined array at `(r, l)` is entry `l` of the joined row. -/
theorem cat_entry (r : Fin 400000) (l : Fin 384) :
    val_main_v14 (F := Ideal) x0 x1 x2 x3 (ix2 r l) = xRow x0 x1 x2 x3 r l :=
  join_entry x0 (val_main_v6 (F := Ideal) x1 x2) (val_main_v13 (F := Ideal) x1 x3) r l

/-! The contraction of the first layer at `(r, k)` runs over the columns `l` of row `r` of the joined array and over
    the rows `l` of column `k` of `W1`; the bias is read at `k`. -/

theorem lidx15 (r : Fin 400000) (k : Fin 256) (l : Fin 384) : lidx_main_v15 (ix2 r k) l = ix2 r l :=
  funext fun a => Fin.ext (by match a with | ⟨0, _⟩ => rfl | ⟨1, _⟩ => rfl)
theorem ridx15 (r : Fin 400000) (k : Fin 256) (l : Fin 384) : ridx_main_v15 (ix2 r k) l = ix2 l k :=
  funext fun a => Fin.ext (by match a with | ⟨0, _⟩ => rfl | ⟨1, _⟩ => rfl)
theorem idx16_17 (r : Fin 400000) (k : Fin 256) : idx_main_v16 (idx_main_v17 (ix2 r k)) = ix1 k :=
  funext fun a => Fin.ext (by match a with | ⟨0, _⟩ => rfl)

/-- The first layer before its activation, at `(r, k)`: `x · W1 + b1` on the joined row `r`, at hidden unit `k`. -/
theorem hidden_entry (r : Fin 400000) (k : Fin 256) :
    val_main_v18 (F := Ideal) x0 x1 x2 x3 x4 x5 (ix2 r k)
      = hidden (xRow x0 x1 x2 x3 r) (fun l k => x4 (ix2 l k)) (fun k => x5 (ix1 k)) k := by
  rw [val_main_v18_apply, val_main_v15_apply, val_main_v17_apply, val_main_v16_apply, idx16_17]
  simp only [Ideal.addf_def]
  unfold hidden
  refine congrArg (· + x5 (ix1 k)) (Finset.sum_congr rfl fun l _ => ?_)
  rw [lidx15, ridx15, cat_entry]

/-- The activation at `(r, k)`: the program's `h · (1 / (1 + exp (−h)))` is SiLU of the first layer's entry. -/
theorem silu_entry (r : Fin 400000) (k : Fin 256) :
    val_main_v19 (F := Ideal) x0 x1 x2 x3 x4 x5 (ix2 r k)
      = silu (hidden (xRow x0 x1 x2 x3 r) (fun l k => x4 (ix2 l k)) (fun k => x5 (ix1 k)) k) := by
  rw [val_main_v19_apply, val_main_call0_v5_apply, val_main_call0_v4_apply, val_main_call0_cst_0_apply,
    val_main_call0_v3_apply, val_main_call0_v2_apply, val_main_call0_cst_apply, val_main_call0_v1_apply,
    val_main_call0_v0_apply, hidden_entry]
  simp only [Ideal.mulf_def, Ideal.hostDivf_def, Ideal.addf_def, Ideal.hostUnary_exp_def, Ideal.hostNegf_def,
    Ideal.negf_def, Ideal.ofBits_def]
  exact silu_expanded _

/-! The contraction of the second layer at `(r, j)` runs over the columns `k` of row `r` of the activations and over the
    rows `k` of column `j` of `W2`; the bias is read at `j`. -/

theorem lidx20 (r : Fin 400000) (j : Fin 128) (k : Fin 256) : lidx_main_v20 (ix2 r j) k = ix2 r k :=
  funext fun a => Fin.ext (by match a with | ⟨0, _⟩ => rfl | ⟨1, _⟩ => rfl)
theorem ridx20 (r : Fin 400000) (j : Fin 128) (k : Fin 256) : ridx_main_v20 (ix2 r j) k = ix2 k j :=
  funext fun a => Fin.ext (by match a with | ⟨0, _⟩ => rfl | ⟨1, _⟩ => rfl)
theorem idx21_22 (r : Fin 400000) (j : Fin 128) : idx_main_v21 (idx_main_v22 (ix2 r j)) = ix1 j :=
  funext fun a => Fin.ext (by match a with | ⟨0, _⟩ => rfl)

/-- The second layer at `(r, j)`: `s · W2 + b2` on the activated row `r`, at feature `j`. -/
theorem preNorm_entry (r : Fin 400000) (j : Fin 128) :
    val_main_v23 (F := Ideal) x0 x1 x2 x3 x4 x5 x6 x7 (ix2 r j) = yRow x0 x1 x2 x3 x4 x5 x6 x7 r j := by
  rw [val_main_v23_apply, val_main_v20_apply, val_main_v22_apply, val_main_v21_apply, idx21_22]
  simp only [Ideal.addf_def]
  unfold yRow preNorm proj
  refine congrArg (· + x7 (ix1 j)) (Finset.sum_congr rfl fun k _ => ?_)
  rw [lidx20, ridx20, silu_entry]

/-! The row sums at row `r` run over the columns of row `r`; the column of means (and of reciprocal standard
    deviations) is read at `(r, 0)` from every entry `(r, j)`. -/

theorem idx24_25 (r : Fin 400000) (z : Fin 1) (k : Fin 128) : idx_main_v24 (idx_main_v25 (ix2 r z)) k = ix2 r k :=
  funext fun a => Fin.ext (by match a with | ⟨0, _⟩ => rfl | ⟨1, _⟩ => rfl)
theorem idx31_32 (r : Fin 400000) (z : Fin 1) (k : Fin 128) : idx_main_v31 (idx_main_v32 (ix2 r z)) k = ix2 r k :=
  funext fun a => Fin.ext (by match a with | ⟨0, _⟩ => rfl | ⟨1, _⟩ => rfl)
theorem idx28 (r : Fin 400000) (j : Fin 128) : idx_main_v28 (ix2 r j) = ix2 r (0 : Fin 1) :=
  funext fun a => Fin.ext (by match a with | ⟨0, _⟩ => rfl | ⟨1, _⟩ => rfl)
theorem idx35 (r : Fin 400000) (j : Fin 128) : idx_main_v35 (ix2 r j) = ix2 r (0 : Fin 1) :=
  funext fun a => Fin.ext (by match a with | ⟨0, _⟩ => rfl | ⟨1, _⟩ => rfl)
theorem idx40 (r : Fin 400000) (j : Fin 128) : idx_main_v40 (ix2 r j) = ix2 r (0 : Fin 1) :=
  funext fun a => Fin.ext (by match a with | ⟨0, _⟩ => rfl | ⟨1, _⟩ => rfl)

/-- The column of means at row `r`: the sum of row `r` of the second layer over the word of 128. -/
theorem mean_entry (r : Fin 400000) (z : Fin 1) :
    val_main_v27 (F := Ideal) x0 x1 x2 x3 x4 x5 x6 x7 (ix2 r z) = mean (yRow x0 x1 x2 x3 x4 x5 x6 x7 r) := by
  rw [val_main_v27_apply, val_main_v25_apply, val_main_v26_apply, val_main_cst_3_apply, val_main_v24_apply,
    val_main_cst_apply]
  simp only [Ideal.hostDivf_def, Ideal.ofBits_def, Ideal.ofBits_zero_f32, zero_add]
  unfold mean
  refine congrArg (Ideal.div · c128) (Finset.sum_congr rfl fun k _ => ?_)
  rw [idx24_25, preNorm_entry]

/-- The centred row at `(r, j)` (the program computes it twice, once for the variance and once for the result). -/
theorem centred_entry (r : Fin 400000) (j : Fin 128) :
    val_main_v29 (F := Ideal) x0 x1 x2 x3 x4 x5 x6 x7 (ix2 r j) = centred (yRow x0 x1 x2 x3 x4 x5 x6 x7 r) j := by
  rw [val_main_v29_apply, val_main_v28_apply, idx28, mean_entry, preNorm_entry]
  rfl
theorem centred_entry' (r : Fin 400000) (j : Fin 128) :
    val_main_v36 (F := Ideal) x0 x1 x2 x3 x4 x5 x6 x7 (ix2 r j) = centred (yRow x0 x1 x2 x3 x4 x5 x6 x7 r) j := by
  rw [val_main_v36_apply, val_main_v35_apply, idx35, mean_entry, preNorm_entry]
  rfl

/-- The column of reciprocal standard deviations at row `r`: `rsqrt` of the mean of the squared centred row plus ε. -/
theorem rstd_entry (r : Fin 400000) (z : Fin 1) :
    val_main_v39 (F := Ideal) x0 x1 x2 x3 x4 x5 x6 x7 (ix2 r z) = rstd (yRow x0 x1 x2 x3 x4 x5 x6 x7 r) := by
  rw [val_main_v39_apply, val_main_v38_apply, val_main_v37_apply, val_main_cst_6_apply, val_main_v34_apply,
    val_main_v33_apply, val_main_cst_5_apply, val_main_v32_apply, val_main_v31_apply, val_main_cst_4_apply]
  simp only [Ideal.hostUnary_rsqrt_def, Ideal.addf_def, Ideal.hostDivf_def, Ideal.ofBits_def, Ideal.ofBits_zero_f32,
    zero_add]
  unfold rstd mean
  refine congrArg (fun s => Ideal.rsqrt (Ideal.div s c128 + cEps)) (Finset.sum_congr rfl fun k _ => ?_)
  rw [idx31_32, val_main_v30_apply, centred_entry]
  rfl

theorem idx42_43 (r : Fin 400000) (j : Fin 128) : idx_main_v42 (idx_main_v43 (ix2 r j)) = ix1 j :=
  funext fun a => Fin.ext (by match a with | ⟨0, _⟩ => rfl)
theorem idx45_46 (r : Fin 400000) (j : Fin 128) : idx_main_v45 (idx_main_v46 (ix2 r j)) = ix1 j :=
  funext fun a => Fin.ext (by match a with | ⟨0, _⟩ => rfl)

/-- The result at `(r, j)`: LayerNorm of the second layer's row `r`, at feature `j`. -/
theorem layerNorm_entry (r : Fin 400000) (j : Fin 128) :
    val_main_v47 (F := Ideal) x0 x1 x2 x3 x4 x5 x6 x7 x8 x9 (ix2 r j)
      = layerNorm (yRow x0 x1 x2 x3 x4 x5 x6 x7 r) (fun j => x8 (ix1 j)) (fun j => x9 (ix1 j)) j := by
  rw [val_main_v47_apply, val_main_v46_apply, val_main_v45_apply, idx45_46, val_main_v44_apply, val_main_v43_apply,
    val_main_v42_apply, idx42_43, val_main_v41_apply, val_main_v40_apply, idx40, rstd_entry, centred_entry']
  rfl

/-- **The reference is `G`**: its result at any entry is the edge network on that entry's row of the edge features and of
    the two gathered node feature arrays. -/
theorem result_entry (i : S400000x128.Idx) :
    val_main_v47 (F := Ideal) x0 x1 x2 x3 x4 x5 x6 x7 x8 x9 i
      = G x0 (val_main_v6 (F := Ideal) x1 x2) (val_main_v13 (F := Ideal) x1 x3) x4 x5 x6 x7 x8 x9 i := by
  obtain ⟨r, j, rfl⟩ : ∃ (r : Fin 400000) (j : Fin 128), i = ix2 r j := ⟨i 0, i 1, eq_ix2 i⟩
  rw [layerNorm_entry]
  rfl

end Cert.EdgeMlp.RefSide

end
-- ==== Proof.lean ====
/-
  An edge network on 400000 edges: each edge's 128 features are joined with the 128 features of its source node and of
  its destination node (rows of a 100000-row node table picked by the edge's two ids, a negative id counted from the
  end), put through a two-layer perceptron with a SiLU between the layers, and normalised over the 128 outputs with a
  scale and a shift (`EdgeMlpSpec`: `edgeRow`, and `G` for the whole array).

  The kernel gathers the node rows first and then works in 250 blocks of 1600 edges; the reference works on the whole
  arrays at once. Over the extended reals both are the same function row by row, with every sum and product associated
  the same way: the kernel's block entry is `edgeRow` of the block's rows (`KernelRow`), its blocks tile the array
  (`KernelArray`), and the reference's result entry is `edgeRow` of the arrays' rows (`RefRow`). The two gathers are the
  same function of the node table and the ids in both programs and are never opened. No law that fails at an infinity
  is used, so the precondition is not needed for the values.

  The frames of the two kernel programs are the generated ones; the reference's frame is its generated run with the
  result dropped. The idealization rewrote nothing, so `preserves` asks nothing.
-/
import proofs.«108960_j76390288327364_1_alg».proof.Defs
import proofs.«108960_j76390288327364_1_alg».proof.Proof.Gen.Kernel
import proofs.«108960_j76390288327364_1_alg».proof.Proof.Gen.Kernel.Skeleton
import proofs.«108960_j76390288327364_1_alg».proof.Proof.Gen.Kernel.Launch
import proofs.«108960_j76390288327364_1_alg».proof.Proof.Gen.Kernel.Points
import proofs.«108960_j76390288327364_1_alg».proof.Proof.Gen.Kernel.Frame
import proofs.«108960_j76390288327364_1_alg».proof.Proof.Gen.KernelIdeal
import proofs.«108960_j76390288327364_1_alg».proof.Proof.Gen.KernelIdeal.Skeleton
import proofs.«108960_j76390288327364_1_alg».proof.Proof.Gen.KernelIdeal.Launch
import proofs.«108960_j76390288327364_1_alg».proof.Proof.Gen.KernelIdeal.Points
import proofs.«108960_j76390288327364_1_alg».proof.Proof.Gen.KernelIdeal.Frame
import proofs.«108960_j76390288327364_1_alg».proof.Proof.Gen.ReferenceIdeal
import proofs.«108960_j76390288327364_1_alg».proof.Proof.Gen.Pre_finite_inputs
import proofs.«108960_j76390288327364_1_alg».proof.Proof.Gen.KernelIdeal.Value
import proofs.«108960_j76390288327364_1_alg».proof.Proof.Gen.ReferenceIdeal.Run
import proofs.«108960_j76390288327364_1_alg».proof.Proof.Gen.ReferenceIdeal.Read
import proofs.«108960_j76390288327364_1_alg».proof.Proof.EdgeMlpSpec
import proofs.«108960_j76390288327364_1_alg».proof.Proof.KernelRow
import proofs.«108960_j76390288327364_1_alg».proof.Proof.KernelArray
import proofs.«108960_j76390288327364_1_alg».proof.Proof.RefRow
import Idealize.ShloMosaic.Adequacy
import Idealize.ShloMosaic.Init

noncomputable section

namespace Cert.Proof

open Idealize.ShloMosaic Idealize.ShloMosaic.TcCoe Idealize.SL.Sem Cert.EdgeMlp

/-- The reference's row gather and the kernel program's are the same operations on the node table and the ids. -/
theorem gather_src (x1 : (⟨Cert.ReferenceIdeal.S100000x128, .f32⟩ : BufTy).Contents (Elt Ideal))
    (x2 : (⟨Cert.ReferenceIdeal.S400000, .i32⟩ : BufTy).Contents (Elt Ideal)) :
    Cert.ReferenceIdeal.Read.val_main_v6 (F := Ideal) x1 x2 = Cert.EdgeMlp.KernelSide.gatherRows (F := Ideal) x1 x2 := rfl
theorem gather_dst (x1 : (⟨Cert.ReferenceIdeal.S100000x128, .f32⟩ : BufTy).Contents (Elt Ideal))
    (x3 : (⟨Cert.ReferenceIdeal.S400000, .i32⟩ : BufTy).Contents (Elt Ideal)) :
    Cert.ReferenceIdeal.Read.val_main_v13 (F := Ideal) x1 x3 = Cert.EdgeMlp.KernelSide.gatherRows (F := Ideal) x1 x3 := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's array of block results and the reference's result are `G` of arguments that agree. -/
theorem algebraic : Cert.algebraic_KernelIdeal_ReferenceIdeal := by
  intro m ρ m' ρ' _ hagree
  refine ⟨_, Cert.EdgeMlp.KernelSide.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v47_eq, a0, a1, a2, a3, a4, a5, a6, a7, a8, a9]
  funext i
  rw [Cert.EdgeMlp.RefSide.result_entry, gather_src, gather_dst]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
